-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : IVec S64x4096 32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S16384x4096 : Shape := ⟨2, ![16384, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S16384x64 : Shape := ⟨2, ![16384, 64]⟩
abbrev S512x4096 : Shape := ⟨2, ![512, 4096]⟩
abbrev S512x64 : Shape := ⟨2, ![512, 64]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64, .f32⟩
  | .hbm, ⟨3, _⟩ => ⟨S4096x64, .i32⟩
  | .hbm, ⟨4, _⟩ => ⟨S1x64, .f32⟩
  | .hbm, ⟨5, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S4096x64, .i32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x4096_S4096x64_1_0 : S64x4096.Transposes [1, 0] S4096x64
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S512x64_S512x64_0_0 : ∀ a, (![0, 0] : Fin 2 → Nat) a + S512x64.size a ≤ S512x64.size a
  h_S512x64 : 0 < S512x64.numel
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .i32 = 32 ∨ (Rect.block (s := S4096x64) S4096x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S16384x64.size a
  hwx0_3 : ∀ i : grid0.Coords, EltTy.bits .f32 = 32 ∨ (Rect.block (s := S16384x64) S512x64.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S64x1 : Shape := ⟨2, ![64, 1]⟩
abbrev S16384x64 : Shape := ⟨2, ![16384, 64]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64, .f32⟩
  | .hbm, ⟨3, _⟩ => ⟨S64x4096, .f32⟩
  | .hbm, ⟨4, _⟩ => ⟨S64x1, .f32⟩
  | .hbm, ⟨5, _⟩ => ⟨S64x4096, .f32⟩
  | .hbm, ⟨6, _⟩ => ⟨S64x4096, .f32⟩
  | .hbm, ⟨7, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  dot_S16384x4096_S64x4096_S16384x64_1_1_0_0_n_n_wf : DotDims.WF S16384x4096 S64x4096 S16384x64 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf

class Facts : Prop extends Facts₀ where

variable [Facts]
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.RouterSpec.lean ====
/-
  The router's logits as one function of the three argument arrays, on the extended reals.

  The weight table stores one integer per (expert, hidden position); expert `e` carries one scale. The dequantized
  weight is the stored integer, read signed, times the expert's scale, and the logit of token `t` for expert `e`
  is the inner product over the 4096 hidden positions of the token's activations with that expert's dequantized
  weights:

      logits[t, e] = Σ_h x[t, h] · (int(w[e, h]) · s[e]).

  Both programs compute exactly this sum, factor for factor, so no law of the extended reals beyond reading each
  operation at an index is needed, and no finiteness.
-/
import Idealize.ShloMosaic.PureOps.Ideal.Laws
import Idealize.ShloMosaic.Lib.ValueIdx

noncomputable section

namespace Cert.Router

open Idealize.ShloMosaic Idealize.ShloMosaic.ValueIdx
open scoped BigOperators

/-- The dequantized weight of expert `e` at hidden position `h`: the stored integer read signed, times the expert's scale. -/
def weight (w : (⟨2, ![64, 4096]⟩ : Shape).Idx → BitVec 32) (s : (⟨1, ![64]⟩ : Shape).Idx → EReal) (e : Fin 64) (h : Fin 4096) : EReal :=
  FloatOps.sitofp (F := Ideal) .f32 (w (ix2 e h)) * s (ix1 e)

/-- The logit of token `i 0` for expert `i 1`: the token's activations against the expert's dequantized weights. -/
def logits (x : (⟨2, ![16384, 4096]⟩ : Shape).Idx → EReal) (w : (⟨2, ![64, 4096]⟩ : Shape).Idx → BitVec 32)
    (s : (⟨1, ![64]⟩ : Shape).Idx → EReal) : (⟨2, ![16384, 64]⟩ : Shape).Idx → EReal :=
  fun i => ∑ h : Fin 4096, x (ix2 (i 0) h) * weight w s (i 1) h

end Cert.Router

end
-- ==== Proof.RouterKernel.lean ====
/-
  The kernel computes the router's logits, block of 512 tokens by block.

  At each of the 32 grid points the body loads a block of 512 token rows, the whole transposed integer table
  (4096 × 64) and the scale row (1 × 64); it converts the table to floats, multiplies each column `e` by the
  scale `s[e]` spread down the rows, and multiplies the token block by the result into a zero accumulator.
  Changes of float format are the identity on the extended reals. So the block's entry (p, e) is
  Σ_h xblock[p, h] · (int(wT[h, e]) · srow[0, e]). The transposed table at (h, e) is the table at (e, h), the
  scale row at (0, e) is s[e], and row p of block t is token 512·t + p: the entry is the logit of that token for
  expert e. The 32 blocks tile the 16384 tokens, so the result array is `logits` of the arguments.
-/
import proofs.«177901_j21182778703899_1_alg».proof.Proof.Gen.KernelIdeal.Value
import proofs.«177901_j21182778703899_1_alg».proof.Proof.LibPlainMatmul
import proofs.«177901_j21182778703899_1_alg».proof.Proof.RouterSpec
import Idealize.ShloMosaic.Lib.ValueLayout
import Idealize.ShloMosaic.Lib.StableHlo.Run
import Idealize.ShloMosaic.Lib.Tactic

noncomputable section

namespace Cert.Router

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value
open scoped BigOperators

/-! ## The body's product at an index -/

/-- Entry (p, e) of the body's product: the token row against column `e` of the dequantized, transposed table. -/
theorem block_entry (v0 : Vec Ideal S512x4096 .f32) (v2 : Vec Ideal S4096x64 .i32) (v5 : Vec Ideal S1x64 .f32) (p : Fin 512) (q : Fin 64) :
    k0_pay1 (F := Ideal) v0 v2 v5 (ix2 p q)
      = ∑ k : Fin 4096, v0 (ix2 p k) * (FloatOps.sitofp (F := Ideal) .f32 (v2 (ix2 k q)) * v5 (ix2 (0 : Fin 1) q)) := by
  unfold k0_pay1
  refine (Cert.PlainMatmul.matmul_zero_apply dot_S512x4096_S4096x64_S512x64_1_0_0_1_n_n rfl rfl rfl rfl rfl rfl none _ _ p q).trans ?_
  refine Finset.sum_congr rfl fun k _ => ?_
  show v0 (ix2 p k) * (FloatOps.sitofp (F := Ideal) .f32 (shapeCast S4096x64 v2 shapeCasts_S4096x64_S4096x64 (ix2 k q))
      * broadcastTo S4096x64 (shapeCast S1x64 v5 shapeCasts_S1x64_S1x64) broadcasts_S1x64_S4096x64 (ix2 k q)) = _
  rw [shapeCast_self, shapeCast_self, broadcastTo_1b_ab_apply]

/-! ## The two arrays the host writes before the region -/

variable (m : (ℓ : Loc nD τ sig) → Buf (Elt Ideal) ℓ) (ρ : Dev nD → PrngReg)

/-- The table the region stages is the argument table transposed. -/
theorem table_eq (c : Dev nD) : (V m c main_v0 : S4096x64.Idx → BitVec 32)
    = transpose S4096x64 [1, 0] (m ((c : Thread nD τ).loc main_arg1)) transposes_S64x4096_S4096x64_1_0 := by
  dsimp only [V, hostOps0]
  after_results

/-- The scale row the region stages is the scale vector cast to one row. -/
theorem scale_eq (c : Dev nD) : (V m c main_v1 : S1x64.Idx → EReal)
    = shapeCast S1x64 (m ((c : Thread nD τ).loc main_arg2) : S64.Idx → EReal) shapeCasts_S64_S1x64 := by
  dsimp only [V, hostOps0]
  after_results
  rfl

/-! ## One block of the product is a block of the logits -/

/-- If row `p` of a token block is row `i 0` of the activations, column `q` of the staged table is row `i 1` of the
    argument table, and the staged scale at `q` is the scale of expert `i 1`, then the body's product at `(p, q)` is the
    logit at `i`. -/
theorem block_logits (X : S16384x4096.Idx → EReal) (W : S64x4096.Idx → BitVec 32) (S : S64.Idx → EReal)
    (v0 : Vec Ideal S512x4096 .f32) (v2 : Vec Ideal S4096x64 .i32) (v5 : Vec Ideal S1x64 .f32)
    (p : Fin 512) (q : Fin 64) (i : S16384x64.Idx)
    (h0 : ∀ k : Fin 4096, v0 (ix2 p k) = X (ix2 (i 0) k))
    (h2 : ∀ k : Fin 4096, v2 (ix2 k q) = W (ix2 (i 1) k))
    (h5 : v5 (ix2 (0 : Fin 1) q) = S (ix1 (i 1))) :
    k0_pay1 (F := Ideal) v0 v2 v5 (ix2 p q) = logits X W S i := by
  rw [block_entry]
  unfold logits weight
  refine Finset.sum_congr rfl fun k _ => ?_
  rw [h0 k, h2 k, h5]

/-! ## The windows over the grid -/

theorem hz : (![0, 0] : Fin 2 → Nat) = fun _ => 0 := funext fun a => by fin_cases a <;> rfl

/-- The printed index maps, decided over the 32 points: the token window and the output window sit at block row `t`,
    block column 0; the table and the scale row do not move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the logits of the argument arrays. -/
theorem flushed_eq (c : Dev nD) (t : Fin cfg0.N) :
    (dats m 0 c).flushed 3 t = ((cfg0.win 3).blk t).view.read (Elt Ideal)
      (logits (m ((c : Thread nD τ).loc main_arg0)) (m ((c : Thread nD τ).loc main_arg1)) (m ((c : Thread nD τ).loc main_arg2))) := by
  rw [flushed3]
  unfold out0_3
  rw [View.canon_unit_zero hz]
  simp only [View.ld_unit_zero (S := S512x4096) hz, View.ld_unit_zero (S := S4096x64) hz, View.ld_unit_zero (S := S1x64) hz]
  obtain ⟨e00, e01, e10, e11, e20, e21, e30, e31⟩ := index_facts t
  refine funext fun (j : S512x64.Idx) => ?_
  obtain ⟨p, q, rfl⟩ : ∃ (p : Fin 512) (q : Fin 64), j = ix2 p q := ⟨j 0, j 1, eq_ix2 j⟩
  show k0_pay1 (F := Ideal) (iblk m c 0 t) (iblk m c 1 t) (iblk m c 2 t) (ix2 p q) = logits _ _ _ (((cfg0.win 3).blk t).view.emb (ix2 p q))
  refine block_logits _ _ _ _ _ _ p q _ (fun k => ?_) (fun k => ?_) ?_
  · -- the token block's row is the activations' row 512·t + p
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · -- the staged table is the argument table transposed
    show V m c main_v0 (((cfg0.win 1).blk t).view.emb (ix2 k q)) = _
    have hq : (((cfg0.win 3).blk t).view.emb (ix2 p q)) 1 = q := Fin.ext (by
      show win0_3.index t (1 : Fin 2) * 64 + 1 * q.val = q.val; omega)
    have he : ((cfg0.win 1).blk t).view.emb (ix2 k q) = ix2 k q := funext fun a => Fin.ext (by
      match a with
      | ⟨0, _⟩ => show win0_1.index t (0 : Fin 2) * 4096 + 1 * k.val = k.val; omega
      | ⟨1, _⟩ => show win0_1.index t (1 : Fin 2) * 64 + 1 * q.val = q.val; omega)
    rw [he, hq, table_eq, transpose_ix2_apply]
  · -- the staged scale row is the scale vector
    show V m c main_v1 (((cfg0.win 2).blk t).view.emb (ix2 (0 : Fin 1) q)) = _
    have hq : (((cfg0.win 3).blk t).view.emb (ix2 p q)) 1 = q := Fin.ext (by
      show win0_3.index t (1 : Fin 2) * 64 + 1 * q.val = q.val; omega)
    have he : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 64 + 1 * q.val = q.val; omega)
    rw [he, hq, scale_eq, shapeCast_a_1a_apply]

/-! ## From blocks to the array -/

/-- An index of the result array is in point `t`'s block iff each coordinate is in the block's range on its axis. -/
theorem mem_blk (t : Fin cfg0.N) (i : S16384x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v2).slice (win0_3.rect t)).set ↔ _
  rw [View.set_slice_whole, Rect.mem_set_unit]
  exact Iff.rfl

/-- Token `r` lies in the block of point `r / 512`: the 32 blocks of 512 rows tile the 16384 tokens. -/
theorem covered (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 32 := N_0
  let t : Fin cfg0.N := ⟨(i 0).val / 512, by rw [hN]; omega⟩
  obtain ⟨-, -, -, -, -, -, e30, e31⟩ := index_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 64 ≤ (i 1).val ∧ (i 1).val < win0_3.index t (1 : Fin 2) * 64 + 64; omega

/-- THE ARRAY after the run is the logits of the argument arrays. -/
theorem final (c : Dev nD) : (dats m 0 c).arrAt 3 cfg0.N
    = logits (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the logits of the arguments, the arguments unchanged. -/
theorem run : θ_run defs (onTc (τ := τ) (main (F := Ideal))) ⟨m, fun _ => 0, ρ⟩ fun r => ∀ c : Dev nD,
      r.2.mem ((c : Thread nD τ).loc main_v2)
        = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Router

end
-- ==== Proof.RouterReference.lean ====
/-
  The reference computes the router's logits.

  The reference converts the integer table to floats, spreads the scale vector along the hidden axis (first to a
  column, then across 4096 columns), multiplies entrywise, and contracts the hidden axis of the activations with the
  hidden axis of the dequantized table. Read at an index (t, e), the contraction is the sum over h of
  x[t, h] times the table's entry (e, h); that entry is int(w[e, h]) times the spread scale at (e, h), which is
  s[e]. This is the logit's defining sum.
-/
import proofs.«177901_j21182778703899_1_alg».proof.Proof.Gen.ReferenceIdeal.Read
import proofs.«177901_j21182778703899_1_alg».proof.Proof.RouterSpec

noncomputable section

namespace Cert.Router

open Idealize.ShloMosaic Idealize.ShloMosaic.ValueIdx
open Cert.ReferenceIdeal Cert.ReferenceIdeal.Read
open scoped BigOperators

/-- The reference's last stage, as a function of the three arguments, is `logits`. -/
theorem reference_eq (x0 : (⟨S16384x4096, .f32⟩ : BufTy).Contents (Elt Ideal)) (x1 : (⟨S64x4096, .i32⟩ : BufTy).Contents (Elt Ideal))
    (x2 : (⟨S64, .f32⟩ : BufTy).Contents (Elt Ideal)) :
    val_main_v4 (F := Ideal) x0 x1 x2 = logits x0 x1 x2 := by
  funext i
  rw [val_main_v4_apply]
  unfold logits weight
  refine Finset.sum_congr rfl fun k _ => ?_
  rw [val_main_v3_apply, val_main_v0_apply, val_main_v2_apply, val_main_v1_apply]
  -- the left operand is read at (t, h), the table at (e, h), the scale at e
  have el : lidx_main_v4 i k = ix2 (i 0) k := funext fun a => Fin.ext (by
    match a with
    | ⟨0, _⟩ => rfl
    | ⟨1, _⟩ => rfl)
  have er : ridx_main_v4 i k = ix2 (i 1) k := funext fun a => Fin.ext (by
    match a with
    | ⟨0, _⟩ => rfl
    | ⟨1, _⟩ => rfl)
  have es : idx_main_v1 (idx_main_v2 (ix2 (i 1) k)) = ix1 (i 1) := funext fun a => Fin.ext (by
    match a with
    | ⟨0, _⟩ => rfl)
  rw [el, er, es]
  rfl

end Cert.Router

end
-- ==== Proof.lean ====
/-
  The certificate of the int8 router: a Pallas kernel that dequantizes a 64 × 4096 integer weight table by one scale
  per expert and multiplies 16384 tokens by it, 512 tokens per grid point, against the einsum reference.

  On the extended reals both programs compute, for token t and expert e,

      Σ_h x[t, h] · (int(w[e, h]) · s[e]),

  the kernel block by block over a transposed table and a scale row, the reference in one contraction over a table
  whose scales were spread along the hidden axis. The two sums agree term by term, so the equality needs no
  finiteness of the inputs. The kernel's frames are the generated class-A frame runs; the reference's frame is its
  generated run with the result dropped; the idealization rewrote nothing, so `preserves` is trivial.
-/
import proofs.«177901_j21182778703899_1_alg».proof.Defs
import proofs.«177901_j21182778703899_1_alg».proof.Proof.Gen.Kernel
import proofs.«177901_j21182778703899_1_alg».proof.Proof.Gen.Kernel.Skeleton
import proofs.«177901_j21182778703899_1_alg».proof.Proof.Gen.Kernel.Launch
import proofs.«177901_j21182778703899_1_alg».proof.Proof.Gen.Kernel.Points
import proofs.«177901_j21182778703899_1_alg».proof.Proof.Gen.Kernel.Frame
import proofs.«177901_j21182778703899_1_alg».proof.Proof.Gen.KernelIdeal
import proofs.«177901_j21182778703899_1_alg».proof.Proof.Gen.KernelIdeal.Skeleton
import proofs.«177901_j21182778703899_1_alg».proof.Proof.Gen.KernelIdeal.Launch
import proofs.«177901_j21182778703899_1_alg».proof.Proof.Gen.KernelIdeal.Points
import proofs.«177901_j21182778703899_1_alg».proof.Proof.Gen.KernelIdeal.Frame
import proofs.«177901_j21182778703899_1_alg».proof.Proof.Gen.ReferenceIdeal
import proofs.«177901_j21182778703899_1_alg».proof.Proof.Gen.Pre_finite_inputs
import proofs.«177901_j21182778703899_1_alg».proof.Proof.RouterKernel
import proofs.«177901_j21182778703899_1_alg».proof.Proof.RouterReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the logits of the (agreeing) arguments in their result arrays. -/
theorem algebraic : Cert.algebraic_KernelIdeal_ReferenceIdeal := by
  intro m ρ m' ρ' _ hagree
  refine ⟨fun c => Cert.Router.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.Router.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Router.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
